-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S2048x3072 : Shape := ⟨2, ![2048, 3072]⟩
abbrev S3072 : Shape := ⟨1, ![3072]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x3072 : S_.BroadcastsInDim S2048x3072 (![] : Fin 0 → Fin S2048x3072.rank)
  reducesTo_S2048x3072_S_d0_1 : S2048x3072.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_arg4 : FVec F S3072 .f32) (main_v13 : IVec S_ 1) (main_v16 : IVec S2048x3072 1) : IVec S_ 1 :=
  let main_c_5 : IVec S_ 1 := constantI S_ 1 1#1
  let main_v17 : IVec S_ 1 := (fun x v => Host.reduce IntOp.andi x v reducesTo_S2048x3072_S_d0_1 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  main_v23

def fn {F : FTy → Type} [FloatOps F] (main_arg0 : FVec F S16384x1024 .f32) (main_arg1 : FVec F S16384x1024 .f32) (main_arg2 : FVec F S16384x1024 .f32) (main_arg3 : FVec F S2048x3072 .f32) (main_arg4 : FVec F S3072 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S2048x3072 .f32 := Host.absf main_arg3
  let main_cst_4 : FVec F S_ .f32 := constant S_ .f32 0x7F800000#32
  let main_v15 : FVec F S2048x3072 .f32 := broadcastInDim S2048x3072 ![] bcast_S_S2048x3072 main_cst_4
  let main_v16 : IVec S2048x3072 1 := cmpf .olt main_v14 main_v15
  fn_part1 (F := F) main_arg4 main_v13 main_v16
-- ==== Kernel.lean ====
abbrev S16384x1024 : Shape := ⟨2, ![16384, 1024]⟩
abbrev S2048x3072 : Shape := ⟨2, ![2048, 3072]⟩
abbrev S3072 : Shape := ⟨1, ![3072]⟩
abbrev S1024x3072 : Shape := ⟨2, ![1024, 3072]⟩
abbrev S256x1024 : Shape := ⟨2, ![256, 1024]⟩
abbrev S256x3072 : Shape := ⟨2, ![256, 3072]⟩
abbrev S1x3072 : Shape := ⟨2, ![1, 3072]⟩

abbrev nBuf : Space → Nat
  | .hbm => 11
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S2048x3072, .f32⟩
  | .hbm, ⟨4, _⟩ => ⟨S3072, .f32⟩
  | .hbm, ⟨5, _⟩ => ⟨S1024x3072, .f32⟩
  | .hbm, ⟨6, _⟩ => ⟨S1024x3072, .bf16⟩
  | .hbm, ⟨7, _⟩ => ⟨S1024x3072, .f32⟩
  | .hbm, ⟨8, _⟩ => ⟨S1024x3072, .bf16⟩
  | .hbm, ⟨9, _⟩ => ⟨S16384x1024, .f32⟩
  | .hbm, ⟨10, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x3072, .bf16⟩
  | .local _ .vmem, ⟨7, _⟩ => ⟨S1024x3072, .bf16⟩
  | .local _ .vmem, ⟨8, _⟩ => ⟨S3072, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2048x3072_S1024x3072_0_0 : S2048x3072.Slices ![0, 0] S1024x3072
  bitsLt_bf16_f32 : FTy.bits .bf16 < FTy.bits .f32
  slices_S2048x3072_S1024x3072_1024_0 : S2048x3072.Slices ![1024, 0] S1024x3072
  inb_S256x1024_S256x1024_0_0 : ∀ a, (![0, 0] : Fin 2 → Nat) a + S256x1024.size a ≤ S256x1024.size a
  h_S256x1024 : 0 < S256x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x3072.size a ≤ S1024x3072.size a
  hwx0_4 : ∀ i : grid0.Coords, EltTy.bits .bf16 = 32 ∨ (Rect.block (s := S1024x3072) S1024x3072.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3072.size a ≤ S3072.size a
  hwx0_5 : ∀ i : grid0.Coords, EltTy.bits .f32 = 32 ∨ (Rect.block (s := S3072) S3072.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S1024x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S2048x3072 : Shape := ⟨2, ![2048, 3072]⟩
abbrev S3072 : Shape := ⟨1, ![3072]⟩
abbrev S16384x2048 : Shape := ⟨2, ![16384, 2048]⟩
abbrev S16384x3072 : Shape := ⟨2, ![16384, 3072]⟩
abbrev S1x3072 : Shape := ⟨2, ![1, 3072]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S2048x3072, .f32⟩
  | .hbm, ⟨4, _⟩ => ⟨S3072, .f32⟩
  | .hbm, ⟨5, _⟩ => ⟨S16384x2048, .f32⟩
  | .hbm, ⟨6, _⟩ => ⟨S16384x3072, .f32⟩
  | .hbm, ⟨7, _⟩ => ⟨S1x3072, .f32⟩
  | .hbm, ⟨8, _⟩ => ⟨S16384x3072, .f32⟩
  | .hbm, ⟨9, _⟩ => ⟨S16384x3072, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  bcast_S_S16384x1024 : S_.BroadcastsInDim S16384x1024 (![] : Fin 0 → Fin S16384x1024.rank)
  dot_S16384x2048_S2048x3072_S16384x3072_1_0_0_1_n_n_wf : DotDims.WF S16384x2048 S2048x3072 S16384x3072 [1] [0] [0] [1] [] []

variable [Facts₀]

def dot_S16384x2048_S2048x3072_S16384x3072_1_0_0_1_n_n : DotDims S16384x2048 S2048x3072 S16384x3072 where
  lhsContracting := [1]
  rhsContracting := [0]
  lhsNonContracting := [0]
  rhsNonContracting := [1]
  lhsBatch := []
  rhsBatch := []
  wf := dot_S16384x2048_S2048x3072_S16384x3072_1_0_0_1_n_n_wf

class Facts : Prop extends Facts₀ where

variable [Facts]
-- ==== Proof.GatedCell.lean ====
/-
  The function both programs compute, stated once over the whole argument arrays.

  A batch of 16384 rows. For row `r` and gate column `n` (3072 columns: three bands of 1024) the
  PRE-ACTIVATION is
      gate r n = ∑ k<1024, x[r,k] · W[k,n]  +  ∑ k<1024, h[r,k] · W[1024+k,n]  +  b[n],
  the row of `x` against the upper 1024 rows of the weight matrix and the row of `h` against its
  lower 1024 rows. With σ the logistic function, column `q` of the new cell state and of the new
  hidden state are
      cell   r q = (1 − σ(gate r q)) · c[r,q] + σ(gate r q) · tanh(gate r (1024+q)),
      hidden r q = tanh(cell r q) · σ(gate r (2048+q)).
  Everything is read on the extended reals, where a float format change is the identity.

  The one law the comparison needs: a sum over 2048 indices is the sum over its first 1024 plus the
  sum over its last 1024. It holds in any commutative additive monoid, so it is used on the
  extended reals without any finiteness assumption.
-/
import Idealize.ShloMosaic.PureOps.Ideal
import Idealize.ShloMosaic.PureOps.Ideal.Laws
import Idealize.ShloMosaic.Lib.ValueIdx

noncomputable section

open scoped BigOperators

namespace Cert.GatedCell

open Idealize.ShloMosaic Idealize.ShloMosaic.ValueIdx

/-- A row-major matrix of extended reals with literal extents. -/
abbrev Mat (a b : Nat) : Type := (⟨2, ![a, b]⟩ : Shape).Idx → EReal
/-- A vector of extended reals with a literal extent. -/
abbrev Row (a : Nat) : Type := (⟨1, ![a]⟩ : Shape).Idx → EReal

/-- Weight row `k` of the upper half (the rows that meet `x`). -/
abbrev upper (k : Fin 1024) : Fin 2048 := ⟨k.val, by have := k.isLt; omega⟩
/-- Weight row `1024 + k` of the lower half (the rows that meet `h`). -/
abbrev lower (k : Fin 1024) : Fin 2048 := ⟨1024 + k.val, by have := k.isLt; omega⟩

/-- Column `q` of the first band: the input gate. -/
abbrev bandI (q : Fin 1024) : Fin 3072 := ⟨q.val, by have := q.isLt; omega⟩
/-- Column `1024 + q`, the second band: the candidate. -/
abbrev bandJ (q : Fin 1024) : Fin 3072 := ⟨1024 + q.val, by have := q.isLt; omega⟩
/-- Column `2048 + q`, the third band: the output gate. -/
abbrev bandO (q : Fin 1024) : Fin 3072 := ⟨2048 + q.val, by have := q.isLt; omega⟩

/-- The pre-activation of gate column `n` for batch row `r`. -/
def gate (x h : Mat 16384 1024) (W : Mat 2048 3072) (b : Row 3072) (r : Fin 16384) (n : Fin 3072) : EReal :=
  (∑ k : Fin 1024, x (ix2 r k) * W (ix2 (upper k) n)) + (∑ k : Fin 1024, h (ix2 r k) * W (ix2 (lower k) n)) + b (ix1 n)

/-- The new cell state at `(r, q)`: the old state kept by `1 − σ` of the input gate, the candidate's `tanh` let in by `σ` of it. -/
def cellAt (x h c : Mat 16384 1024) (W : Mat 2048 3072) (b : Row 3072) (r : Fin 16384) (q : Fin 1024) : EReal :=
  (1 - Ideal.logistic (gate x h W b r (bandI q))) * c (ix2 r q)
    + Ideal.logistic (gate x h W b r (bandI q)) * Ideal.tanh (gate x h W b r (bandJ q))

/-- The new hidden state at `(r, q)`: `tanh` of the new cell state, scaled by `σ` of the output gate. -/
def hiddenAt (x h c : Mat 16384 1024) (W : Mat 2048 3072) (b : Row 3072) (r : Fin 16384) (q : Fin 1024) : EReal :=
  Ideal.tanh (cellAt x h c W b r q) * Ideal.logistic (gate x h W b r (bandO q))

/-- The new cell state as a whole array. -/
def cell (x h c : Mat 16384 1024) (W : Mat 2048 3072) (b : Row 3072) : Mat 16384 1024 :=
  fun i => cellAt x h c W b (i 0) (i 1)

/-- The new hidden state as a whole array. -/
def hidden (x h c : Mat 16384 1024) (W : Mat 2048 3072) (b : Row 3072) : Mat 16384 1024 :=
  fun i => hiddenAt x h c W b (i 0) (i 1)

theorem cell_ix2 (x h c : Mat 16384 1024) (W : Mat 2048 3072) (b : Row 3072) (r : Fin 16384) (q : Fin 1024) :
    cell x h c W b (ix2 r q) = cellAt x h c W b r q := rfl

theorem hidden_ix2 (x h c : Mat 16384 1024) (W : Mat 2048 3072) (b : Row 3072) (r : Fin 16384) (q : Fin 1024) :
    hidden x h c W b (ix2 r q) = hiddenAt x h c W b r q := rfl

/-- A sum over 2048 indices is the sum over the first 1024 plus the sum over the last 1024. -/
theorem sum_halves {M : Type*} [AddCommMonoid M] (f : Fin 2048 → M) :
    ∑ k : Fin 2048, f k = ∑ k : Fin 1024, f (upper k) + ∑ k : Fin 1024, f (lower k) :=
  Fin.sum_univ_add (a := 1024) (b := 1024) f

/-- The pattern of the float `1.0` is the extended real `1`. -/
theorem one_word : Ideal.ofBits .f32 0x3F800000#32 = 1 := IdealRules.sign_bit.ideal_onePat .f32

/-- The logistic function spelt with a negation, an exponential, a sum and a quotient, the two `1`s given by
    their float pattern: it is `σ` at every extended real, the infinities included. -/
theorem logistic_spelt (g : EReal) :
    Ideal.div (Ideal.ofBits .f32 0x3F800000#32) (Ideal.ofBits .f32 0x3F800000#32 + Ideal.exp (-g)) = Ideal.logistic g := by
  rw [one_word]; rfl

/-- The same with the two `1`s already read: by definition. -/
theorem logistic_unfolded (g : EReal) : Ideal.div 1 (1 + Ideal.exp (-g)) = Ideal.logistic g := rfl

end Cert.GatedCell

end
-- ==== Proof.RefCell.lean ====
/-
  The reference computes the gated cell.

  The reference joins `x` and `h` side by side into a 16384×2048 matrix and multiplies it with the
  whole 2048×3072 weight matrix. An entry of the join in a column below 1024 is an entry of `x`, one
  in a column from 1024 on is an entry of `h`; so the 2048-term sum of products at `(r, n)` splits
  into the 1024 terms that meet `x` and the upper weight rows and the 1024 terms that meet `h` and
  the lower weight rows. Adding the bias gives the pre-activation `gate r n`.
  The reference then spells the logistic function as `1 / (1 + exp(−g))`, which is σ at every
  extended real, and combines the three column bands exactly as the cell's definition does.
-/
import proofs.«102578_j24309514895774_1_alg».proof.Proof.Gen.ReferenceIdeal.Read
import proofs.«102578_j24309514895774_1_alg».proof.Proof.GatedCell
import Idealize.ShloMosaic.Lib.Pipeline.Value
import Idealize.ShloMosaic.Lib.ValueIdx
import Idealize.ShloMosaic.PureOps.Ideal.Laws

noncomputable section

open scoped BigOperators

namespace Cert.ReferenceIdeal.RefCell

open Cert.ReferenceIdeal Cert.ReferenceIdeal.Gen Cert.ReferenceIdeal.Read Idealize.ShloMosaic Idealize.ShloMosaic.TcCoe
open Idealize.ShloMosaic.ValueIdx Cert.GatedCell

variable (x h c : (⟨S16384x1024, .f32⟩ : BufTy).Contents (Elt Ideal)) (W : (⟨S2048x3072, .f32⟩ : BufTy).Contents (Elt Ideal))
  (b : (⟨S3072, .f32⟩ : BufTy).Contents (Elt Ideal))

/-- The join of `x` and `h` in a column of the first 1024 is `x` there. -/
theorem joined_upper (r : Fin 16384) (k : Fin 1024) : val_main_v0 (F := Ideal) x h (ix2 r (upper k)) = x (ix2 r k) := by
  unfold val_main_v0
  exact concatenate_pair_apply_left (1 : Fin S16384x2048.rank) x h _ (ix2 r (upper k)) rfl (ix2 r k)
    (fun a => by match a with | ⟨0, _⟩ => rfl | ⟨1, _⟩ => rfl)

/-- The join of `x` and `h` in column `1024 + k` is `h` in column `k`. -/
theorem joined_lower (r : Fin 16384) (k : Fin 1024) : val_main_v0 (F := Ideal) x h (ix2 r (lower k)) = h (ix2 r k) := by
  unfold val_main_v0
  exact concatenate_pair_apply_right (1 : Fin S16384x2048.rank) x h _ (ix2 r (lower k)) rfl rfl (ix2 r k)
    (fun a => by match a with | ⟨0, _⟩ => exact fun _ => rfl | ⟨1, _⟩ => exact fun hne => absurd rfl hne)
    (by show k.val + 1024 = 1024 + k.val; omega)

/-- The reference's matrix product plus bias, at `(r, n)`, is the pre-activation. -/
theorem gate_ref (r : Fin 16384) (n : Fin 3072) : val_main_v4 (F := Ideal) x h W b (ix2 r n) = gate x h W b r n := by
  rw [val_main_v4_apply, val_main_v1_apply, val_main_v3_apply, val_main_v2_apply, sum_halves, Ideal.addf_def]
  unfold gate
  have lu : ∀ k : Fin 1024, lidx_main_v1 (ix2 r n) (upper k) = ix2 r (upper k) := fun k => funext fun a => Fin.ext (by
    match a with | ⟨0, _⟩ => rfl | ⟨1, _⟩ => rfl)
  have ll : ∀ k : Fin 1024, lidx_main_v1 (ix2 r n) (lower k) = ix2 r (lower k) := fun k => funext fun a => Fin.ext (by
    match a with | ⟨0, _⟩ => rfl | ⟨1, _⟩ => rfl)
  have ru : ∀ k : Fin 1024, ridx_main_v1 (ix2 r n) (upper k) = ix2 (upper k) n := fun k => funext fun a => Fin.ext (by
    match a with | ⟨0, _⟩ => rfl | ⟨1, _⟩ => rfl)
  have rl : ∀ k : Fin 1024, ridx_main_v1 (ix2 r n) (lower k) = ix2 (lower k) n := fun k => funext fun a => Fin.ext (by
    match a with | ⟨0, _⟩ => rfl | ⟨1, _⟩ => rfl)
  have eb : idx_main_v2 (idx_main_v3 (ix2 r n)) = ix1 n := funext fun a => Fin.ext (by
    match a with | ⟨0, _⟩ => rfl)
  rw [eb]
  refine congrArg₂ (· + ·) (congrArg₂ (· + ·) (Finset.sum_congr rfl fun k _ => ?_) (Finset.sum_congr rfl fun k _ => ?_)) rfl
  · rw [lu, ru, joined_upper]
  · rw [ll, rl, joined_lower]

/-- Where the three band slices read the pre-activation. -/
theorem bandI_idx (r : Fin 16384) (q : Fin 1024) : idx_main_v5 (ix2 r q) = ix2 r (bandI q) := funext fun a => Fin.ext (by
  match a with | ⟨0, _⟩ => rfl | ⟨1, _⟩ => rfl)
theorem bandJ_idx (r : Fin 16384) (q : Fin 1024) : idx_main_v6 (ix2 r q) = ix2 r (bandJ q) := funext fun a => Fin.ext (by
  match a with | ⟨0, _⟩ => rfl | ⟨1, _⟩ => rfl)
theorem bandO_idx (r : Fin 16384) (q : Fin 1024) : idx_main_v7 (ix2 r q) = ix2 r (bandO q) := funext fun a => Fin.ext (by
  match a with | ⟨0, _⟩ => rfl | ⟨1, _⟩ => rfl)

/-- The reference's second result is the new cell state. -/
theorem cell_ref : val_main_v19 (F := Ideal) x h c W b = cell x h c W b := by
  funext i
  obtain ⟨r, q, rfl⟩ : ∃ (r : Fin 16384) (q : Fin 1024), i = ix2 r q := ⟨i 0, i 1, eq_ix2 i⟩
  rw [cell_ix2]
  unfold cellAt
  simp only [val_main_v19_apply, val_main_v18_apply, val_main_v17_apply, val_main_v16_apply, val_main_v15_apply, val_main_v14_apply,
    val_main_v13_apply, val_main_v12_apply, val_main_v11_apply, val_main_v10_apply, val_main_v9_apply, val_main_v8_apply,
    val_main_v6_apply, val_main_v5_apply, val_main_cst_apply, val_main_cst_0_apply, val_main_cst_1_apply,
    bandI_idx, bandJ_idx, gate_ref,
    Ideal.addf_def, Ideal.subf_def, Ideal.mulf_def, Ideal.hostDivf_def, Ideal.hostUnary_exp_def, Ideal.hostNegf_def, Ideal.negf_def,
    Ideal.hostUnary_tanh_def, Ideal.ofBits_def, one_word, logistic_unfolded]

/-- The reference's first result is the new hidden state. -/
theorem hidden_ref : val_main_v27 (F := Ideal) x h c W b = hidden x h c W b := by
  funext i
  obtain ⟨r, q, rfl⟩ : ∃ (r : Fin 16384) (q : Fin 1024), i = ix2 r q := ⟨i 0, i 1, eq_ix2 i⟩
  rw [hidden_ix2]
  unfold hiddenAt
  rw [← cell_ix2, ← cell_ref]
  simp only [val_main_v27_apply, val_main_v26_apply, val_main_v25_apply, val_main_v24_apply, val_main_v23_apply, val_main_v22_apply,
    val_main_v21_apply, val_main_v20_apply, val_main_v7_apply, val_main_cst_2_apply, val_main_cst_3_apply,
    bandO_idx, gate_ref,
    Ideal.addf_def, Ideal.mulf_def, Ideal.hostDivf_def, Ideal.hostUnary_exp_def, Ideal.hostNegf_def, Ideal.negf_def,
    Ideal.hostUnary_tanh_def, Ideal.ofBits_def, one_word, logistic_unfolded]

end Cert.ReferenceIdeal.RefCell

end
-- ==== Proof.BlockGate.lean ====
/-
  The kernel's pre-activation at one element of a block.

  The body multiplies the 256×1024 block of `x` with the upper weight half and the 256×1024 block of
  `h` with the lower weight half, each into a zero accumulator, adds the two products and then the
  bias row broadcast over the 256 rows. On the extended reals a product into a zero accumulator is
  the plain sum of products over the 1024 contraction indices, and the change of float format of
  the operands is the identity. So at row `p` and column `n` the value is
      ∑ k, X[p,k] · U[k,n]  +  ∑ k, H[p,k] · L[k,n]  +  B[n].
-/
import proofs.«102578_j24309514895774_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockGate

open Cert.KernelIdeal Cert.KernelIdeal.Gen Idealize.ShloMosaic Idealize.ShloMosaic.TcCoe Idealize.ShloMosaic.ValueIdx

/-- The left operand of the product is read at the output's row … -/
theorem lhs_row (i : S256x3072.Idx) (q : dot_S256x1024_S1024x3072_S256x3072_1_0_0_1_n_n.contr.Idx) :
    (dot_S256x1024_S1024x3072_S256x3072_1_0_0_1_n_n.lhsIdx i q 0).val = (i 0).val := by
  unfold DotDims.lhsIdx
  rw [dif_neg (show ¬(0 : Fin S256x1024.rank) ∈ dot_S256x1024_S1024x3072_S256x3072_1_0_0_1_n_n.lhsBatch by decide), dif_pos (show (0 : Fin S256x1024.rank) ∈ dot_S256x1024_S1024x3072_S256x3072_1_0_0_1_n_n.lhsNonContracting by decide)]
  rfl
/-- … and at the contraction index on its second axis; -/
theorem lhs_contr (i : S256x3072.Idx) (q : dot_S256x1024_S1024x3072_S256x3072_1_0_0_1_n_n.contr.Idx) :
    (dot_S256x1024_S1024x3072_S256x3072_1_0_0_1_n_n.lhsIdx i q 1).val = (q ⟨0, by decide⟩).val :=
  dot_S256x1024_S1024x3072_S256x3072_1_0_0_1_n_n.lhsIdx_val_of_single rfl i q
/-- the right operand at the contraction index on its first axis … -/
theorem rhs_contr (i : S256x3072.Idx) (q : dot_S256x1024_S1024x3072_S256x3072_1_0_0_1_n_n.contr.Idx) :
    (dot_S256x1024_S1024x3072_S256x3072_1_0_0_1_n_n.rhsIdx i q 0).val = (q ⟨0, by decide⟩).val :=
  dot_S256x1024_S1024x3072_S256x3072_1_0_0_1_n_n.rhsIdx_val_of_single rfl i q
/-- … and at the output's column. -/
theorem rhs_col (i : S256x3072.Idx) (q : dot_S256x1024_S1024x3072_S256x3072_1_0_0_1_n_n.contr.Idx) :
    (dot_S256x1024_S1024x3072_S256x3072_1_0_0_1_n_n.rhsIdx i q 1).val = (i 1).val := by
  unfold DotDims.rhsIdx
  rw [dif_neg (show ¬(1 : Fin S1024x3072.rank) ∈ dot_S256x1024_S1024x3072_S256x3072_1_0_0_1_n_n.rhsBatch by decide), dif_pos (show (1 : Fin S1024x3072.rank) ∈ dot_S256x1024_S1024x3072_S256x3072_1_0_0_1_n_n.rhsNonContracting by decide)]
  rfl

/-- A 256×1024 block times a 1024×3072 block into the zero accumulator, at `(p, n)`: the sum over the 1024
    contraction indices of the row's entry times the column's entry. -/
theorem product_at (A : FVec Ideal S256x1024 .bf16) (B : FVec Ideal S1024x3072 .bf16) (p : Fin 256) (n : Fin 3072) :
    matmul dot_S256x1024_S1024x3072_S256x3072_1_0_0_1_n_n none A B (constant S256x3072 .f32 0x00000000#32) (ix2 p n)
      = ∑ k : Fin 1024, A (ix2 p k) * B (ix2 k n) := by
  simp only [matmul]
  rw [Ideal.matmul_constant_zero_apply, ← Equiv.sum_comp (contrEquiv1 dot_S256x1024_S1024x3072_S256x3072_1_0_0_1_n_n 1024 rfl rfl).symm]
  refine Finset.sum_congr rfl fun k _ => ?_
  have hk := contrEquiv1_symm_val dot_S256x1024_S1024x3072_S256x3072_1_0_0_1_n_n 1024 rfl rfl k
  have el : dot_S256x1024_S1024x3072_S256x3072_1_0_0_1_n_n.lhsIdx (ix2 p n) ((contrEquiv1 dot_S256x1024_S1024x3072_S256x3072_1_0_0_1_n_n 1024 rfl rfl).symm k) = ix2 p k := funext fun a => Fin.ext (by
    match a with
    | ⟨0, _⟩ => exact lhs_row _ _
    | ⟨1, _⟩ => exact (lhs_contr _ _).trans hk)
  have er : dot_S256x1024_S1024x3072_S256x3072_1_0_0_1_n_n.rhsIdx (ix2 p n) ((contrEquiv1 dot_S256x1024_S1024x3072_S256x3072_1_0_0_1_n_n 1024 rfl rfl).symm k) = ix2 k n := funext fun a => Fin.ext (by
    match a with
    | ⟨0, _⟩ => exact (rhs_contr _ _).trans hk
    | ⟨1, _⟩ => exact rhs_col _ _)
  rw [el, er]

/-- The pre-activation the body computes from its loaded blocks, at row `p` and gate column `n`. -/
theorem preact_at (X H : Vec Ideal S256x1024 .f32) (U L : Vec Ideal S1024x3072 .bf16) (B : Vec Ideal S3072 .f32)
    (p : Fin 256) (n : Fin 3072) :
    k0_pay1 X H U L B (ix2 p n)
      = (∑ k : Fin 1024, X (ix2 p k) * U (ix2 k n)) + (∑ k : Fin 1024, H (ix2 p k) * L (ix2 k n)) + B (ix1 n) := by
  unfold k0_pay1
  rw [addf_apply, addf_apply, product_at, product_at, broadcastTo_1b_ab_apply, shapeCast_a_1a_apply]
  simp only [shapeCast_self, truncf_apply]

end Cert.KernelIdeal.BlockGate

end
-- ==== Proof.BlockCell.lean ====
/-
  One grid point's two output blocks, as the gated cell.

  The body stores two 256×1024 blocks. Each is a pointwise combination of the pre-activation block
  read in its three column bands (columns `q`, `1024+q`, `2048+q`) and of the loaded block of the old
  cell state. Suppose the loaded blocks are rows of the whole arrays: row `p` of the blocks of `x`,
  `h`, `c` is row `r` of those arrays, the two weight blocks are the upper and the lower 1024 rows
  of the weight matrix, and the bias block is the bias. Then the pre-activation block at `(p, n)` is
  `gate r n`, the stored cell block at `(p, q)` is `cellAt r q` and the stored hidden block is
  `hiddenAt r q`. The float `1.0` the body subtracts from is the extended real `1`.
-/
import proofs.«102578_j24309514895774_1_alg».proof.Proof.Gen.KernelIdeal.Value
import proofs.«102578_j24309514895774_1_alg».proof.Proof.BlockGate
import proofs.«102578_j24309514895774_1_alg».proof.Proof.GatedCell

noncomputable section

open scoped BigOperators

namespace Cert.KernelIdeal.BlockCell

open Cert.KernelIdeal Cert.KernelIdeal.Gen Idealize.ShloMosaic Idealize.ShloMosaic.TcCoe Idealize.ShloMosaic.ValueIdx
open Cert.GatedCell

theorem zero_offsets2 : (![0, 0] : Fin 2 → Nat) = fun _ => 0 := funext fun a => by fin_cases a <;> rfl
theorem zero_offsets1 : (![0] : Fin 1 → Nat) = fun _ => 0 := funext fun a => by fin_cases a <;> rfl

variable (x h c : Mat 16384 1024) (W : Mat 2048 3072) (b : Row 3072)
  (X H C : Vec Ideal S256x1024 .f32) (U L : Vec Ideal S1024x3072 .bf16) (B : Vec Ideal S3072 .f32)
  (r : Fin 16384) (p : Fin 256)

/-- The pre-activation block at `(p, n)` is the pre-activation of row `r`. -/
theorem gate_block (hX : ∀ k : Fin 1024, X (ix2 p k) = x (ix2 r k)) (hH : ∀ k : Fin 1024, H (ix2 p k) = h (ix2 r k))
    (hU : ∀ (k : Fin 1024) (n : Fin 3072), U (ix2 k n) = W (ix2 (upper k) n))
    (hL : ∀ (k : Fin 1024) (n : Fin 3072), L (ix2 k n) = W (ix2 (lower k) n))
    (hB : ∀ n : Fin 3072, B (ix1 n) = b (ix1 n)) (n : Fin 3072) :
    k0_pay1 X H U L B (ix2 p n) = gate x h W b r n := by
  rw [BlockGate.preact_at]
  unfold gate
  simp only [hX, hH, hU, hL, hB]

/-- The pattern of `1.0` as the body's scalar constant. -/
theorem one_scalar : Scalar.ofBits (F := Ideal) .f32 0x3F800000#32 = (1 : EReal) := one_word

/-- The stored cell-state block at `(p, q)`. -/
theorem cell_block (hX : ∀ k : Fin 1024, X (ix2 p k) = x (ix2 r k)) (hH : ∀ k : Fin 1024, H (ix2 p k) = h (ix2 r k))
    (hC : ∀ q : Fin 1024, C (ix2 p q) = c (ix2 r q))
    (hU : ∀ (k : Fin 1024) (n : Fin 3072), U (ix2 k n) = W (ix2 (upper k) n))
    (hL : ∀ (k : Fin 1024) (n : Fin 3072), L (ix2 k n) = W (ix2 (lower k) n))
    (hB : ∀ n : Fin 3072, B (ix1 n) = b (ix1 n)) (q : Fin 1024) :
    out0_7 X H C U L B (ix2 p q) = cellAt x h c W b r q := by
  unfold out0_7
  simp only [View.ld_unit_zero (S := S256x1024) zero_offsets2, View.ld_unit_zero (S := S1024x3072) zero_offsets2,
    View.ld_unit_zero (S := S3072) zero_offsets1]
  rw [Value.canon7_eq]
  have e0 : Value.ix7_0 (ix2 p q) = ix2 p (bandI q) := funext fun a => Fin.ext (by
    match a with | ⟨0, _⟩ => rfl | ⟨1, _⟩ => rfl)
  have e1 : Value.ix7_1 (ix2 p q) = ix2 p q := funext fun a => Fin.ext (by
    match a with | ⟨0, _⟩ => rfl | ⟨1, _⟩ => rfl)
  have e2 : Value.ix7_2 (ix2 p q) = ix2 p (bandI q) := funext fun a => Fin.ext (by
    match a with | ⟨0, _⟩ => rfl | ⟨1, _⟩ => rfl)
  have e3 : Value.ix7_3 (ix2 p q) = ix2 p (bandJ q) := funext fun a => Fin.ext (by
    match a with | ⟨0, _⟩ => rfl | ⟨1, _⟩ => show q.val + 1024 = 1024 + q.val; omega)
  show FloatOps.addf (FloatOps.mulf (FloatOps.subf (Scalar.ofBits .f32 0x3F800000#32) (FloatOps.logistic ((k0_pay1 X H U L B) (Value.ix7_0 (ix2 p q))))) (C (Value.ix7_1 (ix2 p q))))
      (FloatOps.mulf (FloatOps.logistic ((k0_pay1 X H U L B) (Value.ix7_2 (ix2 p q)))) (FloatOps.tanh ((k0_pay1 X H U L B) (Value.ix7_3 (ix2 p q))))) = _
  rw [e0, e1, e2, e3, gate_block x h W b X H U L B r p hX hH hU hL hB, gate_block x h W b X H U L B r p hX hH hU hL hB, hC, one_scalar]
  rfl

/-- The stored hidden-state block at `(p, q)`. -/
theorem hidden_block (hX : ∀ k : Fin 1024, X (ix2 p k) = x (ix2 r k)) (hH : ∀ k : Fin 1024, H (ix2 p k) = h (ix2 r k))
    (hC : ∀ q : Fin 1024, C (ix2 p q) = c (ix2 r q))
    (hU : ∀ (k : Fin 1024) (n : Fin 3072), U (ix2 k n) = W (ix2 (upper k) n))
    (hL : ∀ (k : Fin 1024) (n : Fin 3072), L (ix2 k n) = W (ix2 (lower k) n))
    (hB : ∀ n : Fin 3072, B (ix1 n) = b (ix1 n)) (q : Fin 1024) :
    out0_6 X H C U L B (ix2 p q) = hiddenAt x h c W b r q := by
  unfold out0_6
  simp only [View.ld_unit_zero (S := S256x1024) zero_offsets2, View.ld_unit_zero (S := S1024x3072) zero_offsets2,
    View.ld_unit_zero (S := S3072) zero_offsets1]
  rw [Value.canon6_eq]
  have e0 : Value.ix6_0 (ix2 p q) = ix2 p (bandI q) := funext fun a => Fin.ext (by
    match a with | ⟨0, _⟩ => rfl | ⟨1, _⟩ => rfl)
  have e1 : Value.ix6_1 (ix2 p q) = ix2 p q := funext fun a => Fin.ext (by
    match a with | ⟨0, _⟩ => rfl | ⟨1, _⟩ => rfl)
  have e2 : Value.ix6_2 (ix2 p q) = ix2 p (bandI q) := funext fun a => Fin.ext (by
    match a with | ⟨0, _⟩ => rfl | ⟨1, _⟩ => rfl)
  have e3 : Value.ix6_3 (ix2 p q) = ix2 p (bandJ q) := funext fun a => Fin.ext (by
    match a with | ⟨0, _⟩ => rfl | ⟨1, _⟩ => show q.val + 1024 = 1024 + q.val; omega)
  have e4 : Value.ix6_4 (ix2 p q) = ix2 p (bandO q) := funext fun a => Fin.ext (by
    match a with | ⟨0, _⟩ => rfl | ⟨1, _⟩ => show q.val + 2048 = 2048 + q.val; omega)
  show FloatOps.mulf (FloatOps.tanh (FloatOps.addf (FloatOps.mulf (FloatOps.subf (Scalar.ofBits .f32 0x3F800000#32) (FloatOps.logistic ((k0_pay1 X H U L B) (Value.ix6_0 (ix2 p q))))) (C (Value.ix6_1 (ix2 p q))))
      (FloatOps.mulf (FloatOps.logistic ((k0_pay1 X H U L B) (Value.ix6_2 (ix2 p q)))) (FloatOps.tanh ((k0_pay1 X H U L B) (Value.ix6_3 (ix2 p q)))))))
      (FloatOps.logistic ((k0_pay1 X H U L B) (Value.ix6_4 (ix2 p q)))) = _
  rw [e0, e1, e2, e3, e4, gate_block x h W b X H U L B r p hX hH hU hL hB, gate_block x h W b X H U L B r p hX hH hU hL hB,
    gate_block x h W b X H U L B r p hX hH hU hL hB, hC, one_scalar]
  rfl

end Cert.KernelIdeal.BlockCell

end
-- ==== Proof.CellArrays.lean ====
/-
  From blocks to whole arrays: what the kernel's run leaves in its two result arrays.

  The grid has 64 points. At point `t` the windows of `x`, `h`, `c` and of the two results hold rows
  `256·t … 256·t+255` of their arrays (all 1024 columns); the two weight windows and the bias window
  hold their whole arrays at every point. Before the region the program cuts the weight matrix
  into its upper and lower 1024 rows (and changes their float format, the identity here), so the
  two weight windows' arrays are those halves.
  Hence row `p` of point `t`'s blocks is row `256·t + p` of the arrays, and what point `t` writes back
  is exactly block `t` of the whole-array functions `hidden` and `cell`. Every row lies in the block
  of the point `row / 256`, so the blocks cover the arrays and the result arrays end as `hidden` and
  `cell` of the argument arrays.
-/
import proofs.«102578_j24309514895774_1_alg».proof.Proof.Gen.KernelIdeal.Value
import proofs.«102578_j24309514895774_1_alg».proof.Proof.BlockCell
import proofs.«102578_j24309514895774_1_alg».proof.Proof.GatedCell
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.CellArrays

open Cert.KernelIdeal Cert.KernelIdeal.Gen Idealize.ShloMosaic Idealize.ShloMosaic.TcCoe Idealize.SL.Sem
open Idealize.ShloMosaic.Pipeline (Dat)
open Idealize.ShloMosaic.ValueIdx Cert.GatedCell

variable (m : (ℓ : Loc nD τ sig) → Buf (Elt Ideal) ℓ) (ρ : Dev nD → PrngReg)

/-! ## The argument arrays and the loaded blocks, at their literal types -/

abbrev argX (c : Dev nD) : Mat 16384 1024 := m ((c : Thread nD τ).loc main_arg0)
abbrev argH (c : Dev nD) : Mat 16384 1024 := m ((c : Thread nD τ).loc main_arg1)
abbrev argC (c : Dev nD) : Mat 16384 1024 := m ((c : Thread nD τ).loc main_arg2)
abbrev argW (c : Dev nD) : Mat 2048 3072 := m ((c : Thread nD τ).loc main_arg3)
abbrev argB (c : Dev nD) : Row 3072 := m ((c : Thread nD τ).loc main_arg4)

abbrev blkX (c : Dev nD) (t : Fin cfg0.N) : Vec Ideal S256x1024 .f32 := iblk m c 0 t
abbrev blkH (c : Dev nD) (t : Fin cfg0.N) : Vec Ideal S256x1024 .f32 := iblk m c 1 t
abbrev blkC (c : Dev nD) (t : Fin cfg0.N) : Vec Ideal S256x1024 .f32 := iblk m c 2 t
abbrev blkU (c : Dev nD) (t : Fin cfg0.N) : Vec Ideal S1024x3072 .bf16 := iblk m c 3 t
abbrev blkL (c : Dev nD) (t : Fin cfg0.N) : Vec Ideal S1024x3072 .bf16 := iblk m c 4 t
abbrev blkB (c : Dev nD) (t : Fin cfg0.N) : Vec Ideal S3072 .f32 := iblk m c 5 t

/-! ## The index maps over the 64 points -/

/-- The row windows (inputs 0, 1, 2 and results 6, 7) sit at block row `t`, block column 0; the weight and bias
    windows at block 0 (decided over the grid). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 64 := lt_of_lt_of_eq t.isLt N_0

/-- Row `p` of point `t`'s blocks is row `256·t + p` of the arrays. -/
abbrev rowOf (t : Fin cfg0.N) (p : Fin 256) : Fin 16384 := ⟨t.val * 256 + p.val, by have := point_lt t; have := p.isLt; omega⟩

/-! ## The weight halves as the region finds them -/

theorem upper_half (c : Dev nD) : (V m c main_call0_v1 : S1024x3072.Idx → EReal)
    = truncf (F := Ideal) .bf16 (extractStridedSlice S1024x3072 ![0, 0] (argW m c) slices_S2048x3072_S1024x3072_0_0) bitsLt_bf16_f32 := by
  dsimp only [Gen.V, Gen.hostOps0]; after_results; rfl

theorem lower_half (c : Dev nD) : (V m c main_call0_v3 : S1024x3072.Idx → EReal)
    = truncf (F := Ideal) .bf16 (extractStridedSlice S1024x3072 ![1024, 0] (argW m c) slices_S2048x3072_S1024x3072_1024_0) bitsLt_bf16_f32 := by
  dsimp only [Gen.V, Gen.hostOps0]; after_results; rfl

theorem upper_at (c : Dev nD) (k : Fin 1024) (n : Fin 3072) : V m c main_call0_v1 (ix2 k n) = argW m c (ix2 (upper k) n) := by
  rw [upper_half]
  exact slice2_axis0_apply 0 (argW m c) slices_S2048x3072_S1024x3072_0_0 k n (upper k) (Nat.zero_add _).symm

theorem lower_at (c : Dev nD) (k : Fin 1024) (n : Fin 3072) : V m c main_call0_v3 (ix2 k n) = argW m c (ix2 (lower k) n) := by
  rw [lower_half]
  exact slice2_axis0_apply 1024 (argW m c) slices_S2048x3072_S1024x3072_1024_0 k n (lower k) rfl

/-! ## Each loaded block, read off its array -/

theorem blkX_at (c : Dev nD) (t : Fin cfg0.N) (p : Fin 256) (k : Fin 1024) : blkX m c t (ix2 p k) = argX m c (ix2 (rowOf t p) k) := by
  obtain ⟨e0, e1, -⟩ := idx_facts t
  show V m c main_arg0 (((cfg0.win 0).blk t).view.emb (ix2 p k)) = _
  rw [V_main_arg0]
  refine congrArg (argX m c) (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

theorem blkH_at (c : Dev nD) (t : Fin cfg0.N) (p : Fin 256) (k : Fin 1024) : blkH m c t (ix2 p k) = argH m c (ix2 (rowOf t p) k) := by
  obtain ⟨-, -, e0, e1, -⟩ := idx_facts t
  show V m c main_arg1 (((cfg0.win 1).blk t).view.emb (ix2 p k)) = _
  rw [V_main_arg1]
  refine congrArg (argH m c) (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

theorem blkC_at (c : Dev nD) (t : Fin cfg0.N) (p : Fin 256) (q : Fin 1024) : blkC m c t (ix2 p q) = argC m c (ix2 (rowOf t p) q) := by
  obtain ⟨-, -, -, -, e0, e1, -⟩ := idx_facts t
  show V m c main_arg2 (((cfg0.win 2).blk t).view.emb (ix2 p q)) = _
  rw [V_main_arg2]
  refine congrArg (argC m c) (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * q.val = q.val; omega

theorem blkU_at (c : Dev nD) (t : Fin cfg0.N) (k : Fin 1024) (n : Fin 3072) : blkU m c t (ix2 k n) = argW m c (ix2 (upper k) n) := by
  obtain ⟨-, -, -, -, -, -, e0, e1, -⟩ := idx_facts t
  show V m c main_call0_v1 (((cfg0.win 3).blk t).view.emb (ix2 k n)) = _
  rw [← upper_at m c k n]
  refine congrArg (V m c main_call0_v1) (funext fun a => Fin.ext ?_)
  match a with
  | ⟨0, _⟩ => show win0_3.index t (0 : Fin 2) * 1024 + 1 * k.val = k.val; omega
  | ⟨1, _⟩ => show win0_3.index t (1 : Fin 2) * 3072 + 1 * n.val = n.val; omega

theorem blkL_at (c : Dev nD) (t : Fin cfg0.N) (k : Fin 1024) (n : Fin 3072) : blkL m c t (ix2 k n) = argW m c (ix2 (lower k) n) := by
  obtain ⟨-, -, -, -, -, -, -, -, e0, e1, -⟩ := idx_facts t
  show V m c main_call0_v3 (((cfg0.win 4).blk t).view.emb (ix2 k n)) = _
  rw [← lower_at m c k n]
  refine congrArg (V m c main_call0_v3) (funext fun a => Fin.ext ?_)
  match a with
  | ⟨0, _⟩ => show win0_4.index t (0 : Fin 2) * 1024 + 1 * k.val = k.val; omega
  | ⟨1, _⟩ => show win0_4.index t (1 : Fin 2) * 3072 + 1 * n.val = n.val; omega

theorem blkB_at (c : Dev nD) (t : Fin cfg0.N) (n : Fin 3072) : blkB m c t (ix1 n) = argB m c (ix1 n) := by
  obtain ⟨-, -, -, -, -, -, -, -, -, -, e0, -⟩ := idx_facts t
  show V m c main_arg4 (((cfg0.win 5).blk t).view.emb (ix1 n)) = _
  rw [V_main_arg4]
  refine congrArg (argB m c) (funext fun a => Fin.ext ?_)
  match a with
  | ⟨0, _⟩ => show win0_5.index t (0 : Fin 1) * 3072 + 1 * n.val = n.val; omega

/-! ## What each point writes back -/

/-- Where point `t`'s result block sits in the hidden-state array. -/
theorem emb6 (t : Fin cfg0.N) (p : Fin 256) (q : Fin 1024) : ((cfg0.win 6).blk t).view.emb (ix2 p q) = ix2 (rowOf t p) q := by
  obtain ⟨-, -, -, -, -, -, -, -, -, -, -, e0, e1, -⟩ := idx_facts t
  refine funext fun a => Fin.ext ?_
  match a with
  | ⟨0, _⟩ => show win0_6.index t (0 : Fin 2) * 256 + 1 * p.val = t.val * 256 + p.val; omega
  | ⟨1, _⟩ => show win0_6.index t (1 : Fin 2) * 1024 + 1 * q.val = q.val; omega

/-- Where point `t`'s result block sits in the cell-state array. -/
theorem emb7 (t : Fin cfg0.N) (p : Fin 256) (q : Fin 1024) : ((cfg0.win 7).blk t).view.emb (ix2 p q) = ix2 (rowOf t p) q := by
  obtain ⟨-, -, -, -, -, -, -, -, -, -, -, -, -, e0, e1⟩ := idx_facts t
  refine funext fun a => Fin.ext ?_
  match a with
  | ⟨0, _⟩ => show win0_7.index t (0 : Fin 2) * 256 + 1 * p.val = t.val * 256 + p.val; omega
  | ⟨1, _⟩ => show win0_7.index t (1 : Fin 2) * 1024 + 1 * q.val = q.val; omega

/-- Point `t` writes back block `t` of the new hidden state. -/
theorem hidden_written (c : Dev nD) (t : Fin cfg0.N) :
    (dats m 0 c).flushed 6 t = ((cfg0.win 6).blk t).view.read (Elt Ideal) (hidden (argX m c) (argH m c) (argC m c) (argW m c) (argB m c)) := by
  rw [Value.flushed6]
  funext j
  obtain ⟨p, q, rfl⟩ : ∃ (p : Fin 256) (q : Fin 1024), j = ix2 p q := ⟨j 0, j 1, eq_ix2 j⟩
  show out0_6 (blkX m c t) (blkH m c t) (blkC m c t) (blkU m c t) (blkL m c t) (blkB m c t) (ix2 p q)
    = hidden (argX m c) (argH m c) (argC m c) (argW m c) (argB m c) (((cfg0.win 6).blk t).view.emb (ix2 p q))
  rw [emb6, hidden_ix2]
  exact BlockCell.hidden_block (argX m c) (argH m c) (argC m c) (argW m c) (argB m c) (blkX m c t) (blkH m c t) (blkC m c t) (blkU m c t)
    (blkL m c t) (blkB m c t) (rowOf t p) p (blkX_at m c t p) (blkH_at m c t p) (blkC_at m c t p) (blkU_at m c t) (blkL_at m c t) (blkB_at m c t) q

/-- Point `t` writes back block `t` of the new cell state. -/
theorem cell_written (c : Dev nD) (t : Fin cfg0.N) :
    (dats m 0 c).flushed 7 t = ((cfg0.win 7).blk t).view.read (Elt Ideal) (cell (argX m c) (argH m c) (argC m c) (argW m c) (argB m c)) := by
  rw [Value.flushed7]
  funext j
  obtain ⟨p, q, rfl⟩ : ∃ (p : Fin 256) (q : Fin 1024), j = ix2 p q := ⟨j 0, j 1, eq_ix2 j⟩
  show out0_7 (blkX m c t) (blkH m c t) (blkC m c t) (blkU m c t) (blkL m c t) (blkB m c t) (ix2 p q)
    = cell (argX m c) (argH m c) (argC m c) (argW m c) (argB m c) (((cfg0.win 7).blk t).view.emb (ix2 p q))
  rw [emb7, cell_ix2]
  exact BlockCell.cell_block (argX m c) (argH m c) (argC m c) (argW m c) (argB m c) (blkX m c t) (blkH m c t) (blkC m c t) (blkU m c t)
    (blkL m c t) (blkB m c t) (rowOf t p) p (blkX_at m c t p) (blkH_at m c t p) (blkC_at m c t p) (blkU_at m c t) (blkL_at m c t) (blkB_at m c t) q

/-! ## The blocks cover the arrays -/

theorem mem_blk6 (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v0_0).slice (win0_6.rect t)).set ↔ _
  rw [View.set_slice_whole, Rect.mem_set_unit]
  exact Iff.rfl

theorem mem_blk7 (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v0_1).slice (win0_7.rect t)).set ↔ _
  rw [View.set_slice_whole, Rect.mem_set_unit]
  exact Iff.rfl

/-- The point whose block holds row `i 0`: `row / 256`. -/
abbrev pointOf (i : S16384x1024.Idx) : Fin cfg0.N := ⟨(i 0).val / 256, by
  have hi : (i 0).val < 16384 := (i 0).isLt
  show (i 0).val / 256 < grid0.N
  rw [N_0]; omega⟩

theorem hidden_covered (i : S16384x1024.Idx) : ∃ t : Fin cfg0.N, (cfg0.win 6).flush t = true ∧ i ∈ ((cfg0.win 6).blk t).view.set := by
  have hi0 : (i 0).val < 16384 := (i 0).isLt
  have hi1 : (i 1).val < 1024 := (i 1).isLt
  refine ⟨pointOf i, flush0_6 _, ?_⟩
  obtain ⟨-, -, -, -, -, -, -, -, -, -, -, e0, e1, -⟩ := idx_facts (pointOf i)
  rw [mem_blk6]
  intro a
  match a with
  | ⟨0, _⟩ => show win0_6.index (pointOf i) (0 : Fin 2) * 256 ≤ (i 0).val ∧ (i 0).val < win0_6.index (pointOf i) (0 : Fin 2) * 256 + 256; rw [e0]; show (i 0).val / 256 * 256 ≤ (i 0).val ∧ (i 0).val < (i 0).val / 256 * 256 + 256; omega
  | ⟨1, _⟩ => show win0_6.index (pointOf i) (1 : Fin 2) * 1024 ≤ (i 1).val ∧ (i 1).val < win0_6.index (pointOf i) (1 : Fin 2) * 1024 + 1024; rw [e1]; omega

theorem cell_covered (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  refine ⟨pointOf i, flush0_7 _, ?_⟩
  obtain ⟨-, -, -, -, -, -, -, -, -, -, -, -, -, e0, e1⟩ := idx_facts (pointOf i)
  rw [mem_blk7]
  intro a
  match a with
  | ⟨0, _⟩ => show win0_7.index (pointOf i) (0 : Fin 2) * 256 ≤ (i 0).val ∧ (i 0).val < win0_7.index (pointOf i) (0 : Fin 2) * 256 + 256; rw [e0]; show (i 0).val / 256 * 256 ≤ (i 0).val ∧ (i 0).val < (i 0).val / 256 * 256 + 256; omega
  | ⟨1, _⟩ => show win0_7.index (pointOf i) (1 : Fin 2) * 1024 ≤ (i 1).val ∧ (i 1).val < win0_7.index (pointOf i) (1 : Fin 2) * 1024 + 1024; rw [e1]; omega

/-! ## The arrays after the run -/

theorem hidden_final (c : Dev nD) : (dats m 0 c).arrAt 6 cfg0.N = hidden (argX m c) (argH m c) (argC m c) (argW m c) (argB m c) :=
  (dats m 0 c).arrAt_eq_of_cover 6 (hidden (argX m c) (argH m c) (argC m c) (argW m c) (argB m c)) (fun t _ => hidden_written m c t) hidden_covered

theorem cell_final (c : Dev nD) : (dats m 0 c).arrAt 7 cfg0.N = cell (argX m c) (argH m c) (argC m c) (argW m c) (argB m c) :=
  (dats m 0 c).arrAt_eq_of_cover 7 (cell (argX m c) (argH m c) (argC m c) (argW m c) (argB m c)) (fun t _ => cell_written m c t) cell_covered

/-- The kernel's run: every weakly fair execution ends with the first result array at `hidden` and the second at
    `cell` of the argument arrays, the arguments unchanged. -/
theorem run : θ_run defs (onTc (τ := τ) (main (F := Ideal))) ⟨m, fun _ => 0, ρ⟩ fun r => ∀ c : Dev nD,
      r.2.mem ((c : Thread nD τ).loc main_v0_0) = hidden (argX m c) (argH m c) (argC m c) (argW m c) (argB m c)
      ∧ r.2.mem ((c : Thread nD τ).loc main_v0_1) = cell (argX m c) (argH m c) (argC m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (hidden_final m c), (h c).2.1.trans (cell_final m c), (h c).2.2⟩)
    (Value.run_blocks m ρ)

end Cert.KernelIdeal.CellArrays

end
-- ==== Proof.lean ====
/-
  A gated recurrent cell on a batch of 16384 rows: the tiled kernel against the plain reference.

  Both programs compute, for batch row `r` and column `q < 1024`,
      gate r n   = ∑ k<1024, x[r,k]·W[k,n] + ∑ k<1024, h[r,k]·W[1024+k,n] + b[n]        (n < 3072)
      cell r q   = (1 − σ(gate r q)) · c[r,q] + σ(gate r q) · tanh(gate r (1024+q))
      hidden r q = tanh(cell r q) · σ(gate r (2048+q))
  and return `hidden` and `cell`.

  The kernel walks the batch in 64 blocks of 256 rows. In each it multiplies the block of `x` with the
  upper half of the weight rows and the block of `h` with the lower half, into zero accumulators, and
  adds the bias row; it takes the three column bands of the result and applies the logistic function
  and `tanh`. The reference joins `x` and `h` side by side, multiplies once with the whole weight
  matrix, and spells the logistic function as `1 / (1 + exp(−g))`.

  On the extended reals the two agree at every argument. A change of float format is the identity; a
  product into a zero accumulator is the sum of products; the reference's 2048-term sum splits into
  the kernel's two 1024-term sums because the join is `x` in its first 1024 columns and `h` in the
  rest (a sum in a commutative monoid may be cut in two, no finiteness needed); and
  `1 / (1 + exp(−g))` is the logistic function by definition, the infinities included. The kernel's
  blocks are rows `256·t … 256·t+255` of the arrays, so the blocks written back over the 64 points
  cover the result arrays, which therefore end as `hidden` and `cell` of the arguments.

  The precondition (finite inputs) is never opened: the equality holds on all extended reals. The
  kernel read on the extended reals is its own text, nothing rewritten, so the claim that it is a
  sanctioned reading of the word-level kernel has no conjunct to prove.
-/
import proofs.«102578_j24309514895774_1_alg».proof.Defs
import proofs.«102578_j24309514895774_1_alg».proof.Proof.Gen.Kernel
import proofs.«102578_j24309514895774_1_alg».proof.Proof.Gen.Kernel.Skeleton
import proofs.«102578_j24309514895774_1_alg».proof.Proof.Gen.Kernel.Launch
import proofs.«102578_j24309514895774_1_alg».proof.Proof.Gen.Kernel.Points
import proofs.«102578_j24309514895774_1_alg».proof.Proof.Gen.Kernel.Frame
import proofs.«102578_j24309514895774_1_alg».proof.Proof.Gen.KernelIdeal
import proofs.«102578_j24309514895774_1_alg».proof.Proof.Gen.KernelIdeal.Skeleton
import proofs.«102578_j24309514895774_1_alg».proof.Proof.Gen.KernelIdeal.Launch
import proofs.«102578_j24309514895774_1_alg».proof.Proof.Gen.KernelIdeal.Points
import proofs.«102578_j24309514895774_1_alg».proof.Proof.Gen.KernelIdeal.Frame
import proofs.«102578_j24309514895774_1_alg».proof.Proof.Gen.ReferenceIdeal
import proofs.«102578_j24309514895774_1_alg».proof.Proof.Gen.Pre_finite_inputs
import proofs.«102578_j24309514895774_1_alg».proof.Proof.Gen.KernelIdeal.Value
import proofs.«102578_j24309514895774_1_alg».proof.Proof.Gen.ReferenceIdeal.Run
import proofs.«102578_j24309514895774_1_alg».proof.Proof.Gen.ReferenceIdeal.Read
import proofs.«102578_j24309514895774_1_alg».proof.Proof.GatedCell
import proofs.«102578_j24309514895774_1_alg».proof.Proof.RefCell
import proofs.«102578_j24309514895774_1_alg».proof.Proof.CellArrays
import Idealize.ShloMosaic.Adequacy
import Idealize.ShloMosaic.Init

noncomputable section

namespace Cert.Proof.CellClaims

open Idealize.ShloMosaic Idealize.ShloMosaic.TcCoe Idealize.SL.Sem

/-- The word-level kernel runs and leaves its arguments as they were. -/
theorem frame_kernel : @Cert.frame_Kernel Cert.Kernel.Gen.facts Cert.Pre_finite_inputs.Gen.facts :=
  fun m ρ _ => Cert.Kernel.Gen.frame m ρ

/-- So does the kernel read on the extended reals. -/
theorem frame_kernel_ideal : @Cert.frame_KernelIdeal Cert.KernelIdeal.Gen.facts Cert.Pre_finite_inputs.Gen.facts :=
  fun m ρ _ => Cert.KernelIdeal.Gen.frame m ρ

/-- The reference is a straight line of host operations: its run, with the two results dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

/-- From memories that agree on the five arguments both programs end with `hidden` in their first result and
    `cell` in their second: the kernel by its blocks covering the arrays, the reference by reading its
    operations at an index. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, Cert.KernelIdeal.CellArrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v27_eq, Cert.ReferenceIdeal.RefCell.hidden_ref,
      (hagree c).1, (hagree c).2.1, (hagree c).2.2.1, (hagree c).2.2.2.1, (hagree c).2.2.2.2]
  · rw [Cert.ReferenceIdeal.Read.val_main_v19_eq, Cert.ReferenceIdeal.RefCell.cell_ref,
      (hagree c).1, (hagree c).2.1, (hagree c).2.2.1, (hagree c).2.2.2.1, (hagree c).2.2.2.2]

end Cert.Proof.CellClaims

namespace Cert.Proof

theorem claim : Cert.Claim :=
  ⟨Cert.Kernel.Gen.facts, Cert.KernelIdeal.Gen.facts, Cert.ReferenceIdeal.Gen.facts, Cert.Pre_finite_inputs.Gen.facts,
    CellClaims.frame_kernel, CellClaims.frame_kernel_ideal, CellClaims.frame_reference, trivial, CellClaims.algebraic⟩

end Cert.Proof

end
